-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩

abbrev nBuf : Space → Nat
  | .hbm => 39
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S128x128, .f32⟩
  | .hbm, ⟨20, _⟩ => ⟨S100000x1, .f32⟩
  | .hbm, ⟨21, _⟩ => ⟨S100000x128, .bf16⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000x128, .bf16⟩
  | .hbm, ⟨31, _⟩ => ⟨S1700000x128, .f32⟩
  | .hbm, ⟨32, _⟩ => ⟨S_, .f32⟩
  | .hbm, ⟨33, _⟩ => ⟨S100000x128, .f32⟩
  | .hbm, ⟨34, _⟩ => ⟨S1700000x1, .i32⟩
  | .hbm, ⟨35, _⟩ => ⟨S100000x128, .f32⟩
  | .hbm, ⟨36, _⟩ => ⟨S100000x1, .f32⟩
  | .hbm, ⟨37, _⟩ => ⟨S100000x128, .f32⟩
  | .hbm, ⟨38, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 56
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S1700000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S128x128, .f32⟩
  | .hbm, ⟨39, _⟩ => ⟨S100000x128, .f32⟩
  | .hbm, ⟨40, _⟩ => ⟨S1700000x1, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.EdgeIndex.lean ====
/-
  How an edge list addresses rows.

  Both programs keep the graph as two columns of words, one start index per edge, and use them in two ways.
  A GATHER of rows reads, for edge `e` and feature `f`, the table's row numbered by edge `e`'s word read as a
  signed integer and clamped into the table. A SCATTER of rows adds update `(e, f)` into entry `(r, f)` where
  `r` is edge `e`'s word read as a signed integer, and drops the update when that is no row of the table.
  The facts here say which row that is; they are stated for any extents, over the dimension numbers such a
  row gather and row scatter carry.
-/
import Idealize.ShloMosaic.Lib.StableHlo.Predicate

namespace Cert.EdgeIndex

open Idealize.ShloMosaic Idealize.ShloMosaic.StableHlo.Predicate

/-- The row a gather of rows reads for result entry `u = (e, f)`: edge `e`'s start word, read signed and
    clamped into `0 … N - 1`. -/
theorem gather_rows_row {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (u : (⟨2, ![n, C]⟩ : Shape).Idx) :
    (d.operandIdx u idx 0).val = min (idx (ixP (u 0))).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = _
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hall : ∀ x ∈ d.batchDims, x = (0 : Fin 2) := by
      intro x hx
      have hbd : d.batchDims = [0] := by
        show Shape.kept _ d.offsetDims = _
        rw [hoff]; rfl
      rw [hbd] at hx; simpa using hx
    rw [hall _ (List.getElem_mem _)]
  | ⟨1, _⟩ =>
    unfold GatherDims.siIdx
    rw [dif_pos (by rw [hivd])]
    apply Fin.ext
    show List.idxOf (0 : Fin 2) d.startIndexMap = 0
    rw [hsim]; simp

/-- An update `u = (e, f)` of a scatter of rows that lands on entry `i = (r, f')` has start word `r`: the word
    is read signed and is NOT clamped, so landing on row `r` means being `r`. -/
theorem scatter_rows_lands {N C n w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (u : (⟨2, ![n, C]⟩ : Shape).Idx) (i : (⟨2, ![N, C]⟩ : Shape).Idx)
    (h : d.resultIdx? u idx = some i) : (idx (ixP (u 0))).toInt = ((i 0).val : Int) := by
  unfold ScatterDims.resultIdx? at h
  split at h
  · next hin =>
    have h0 := hin 0
    have hi : i = _ := (Option.some.inj h).symm
    have hm : (0 : Fin 2) ∈ d.scatterDimsToOperandDims := by rw [hsd]; exact List.mem_singleton.mpr rfl
    have hk : (0 : Fin 2) ∉ d.sKept := by
      show (0 : Fin 2) ∉ Shape.kept _ d.insertedWindowDims
      rw [hiw]; simp [Shape.kept]
    have hw : d.window u 0 = 0 := by unfold ScatterDims.window; rw [dif_neg hk]
    have hs : d.start u idx 0 = (idx (ixP (u 0))).toInt := by
      unfold ScatterDims.start
      rw [dif_pos hm]
      congr 2
      funext b
      match b with
      | ⟨0, _⟩ =>
        unfold ScatterDims.siIdx
        rw [dif_neg (by rw [hivd]; simp)]
        unfold ScatterDims.siCoord
        apply Fin.ext
        simp only [Fin.val_cast]
        have hall : ∀ x ∈ d.uScatter, x = (0 : Fin 2) := by
          intro x hx
          have hbd : d.uScatter = [0] := by
            show Shape.kept _ d.updateWindowDims = _
            rw [huw]; rfl
          rw [hbd] at hx; simpa using hx
        rw [hall _ (List.getElem_mem _)]
      | ⟨1, _⟩ =>
        unfold ScatterDims.siIdx
        rw [dif_pos (by rw [hivd])]
        apply Fin.ext
        show List.idxOf (0 : Fin 2) d.scatterDimsToOperandDims = 0
        rw [hsd]; simp
    rw [hw, hs] at h0
    rw [hi]
    show _ = (((d.start u idx 0 + (d.window u 0 : Int)).toNat : Nat) : Int)
    rw [hw, hs]
    omega
  · exact absurd h (by simp)

/-- jnp wraps a negative index once (`w < 0 ? w + k : w`) before it gathers. A word that is not negative as a
    signed integer is left as it is. -/
theorem wrap_of_nonneg (w k : BitVec 32) (h : 0 ≤ w.toInt) :
    Scalar.select (IntOp.cmpi .slt w 0#32) (IntOp.addi w k) w = w := by
  have hc : IntOp.cmpi .slt w 0#32 = 0#1 := by
    unfold IntOp.cmpi
    have : w.slt 0#32 = false := by simp [BitVec.slt]; omega
    rw [this]; rfl
  rw [hc]; exact if_neg (by decide)

/-- A word whose signed value is a row `r` of a table of `N` rows, wrapped and then clamped into the table,
    is `r`. -/
theorem clamp_wrap_of_row (w k : BitVec 32) (r N : Nat) (hr : r < N) (h : w.toInt = (r : Int)) :
    min (Scalar.select (IntOp.cmpi .slt w 0#32) (IntOp.addi w k) w).toInt.toNat (N - 1) = r := by
  rw [wrap_of_nonneg w k (by omega), h]
  simp only [Int.toNat_natCast]
  omega

end Cert.EdgeIndex
-- ==== Proof.ScaleOutOfSum.lean ====
/-
  Pulling a non-negative real factor through a finite sum of extended reals.

  On the extended reals multiplication does not distribute over addition in general (an infinite factor
  against summands of both signs, or a negative factor against `⊤ + ⊥`). A factor that is a NON-NEGATIVE
  REAL does distribute, over any summands: that is the one law the two programs differ by. The message
  passing step normalises edge `(r, c)` by `d r * d c`; one program multiplies every message by both
  factors before summing the messages that arrive at `r`, the other multiplies each message by `d c` only
  and scales the finished sum by `d r`.
-/
import Idealize.ShloMosaic.PureOps.Ideal

namespace Cert.ScaleOutOfSum

open Finset

/-- A non-negative real factor distributes over a finite sum of extended reals. -/
theorem coe_mul_sum {ι : Type} (s : Finset ι) (c : ℝ) (hc : 0 ≤ c) (f : ι → EReal) :
    (c : EReal) * ∑ u ∈ s, f u = ∑ u ∈ s, (c : EReal) * f u := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The law joining the two programs. Over the messages `u ∈ s` that arrive at one node, with `a u` the
    projected feature carried, `b u` the sender's normaliser and `g u` the receiver's normaliser as the
    message reads it — equal to the node's own normaliser `c` on every message that arrives there —:
    scaling the sum of `a u * b u` by `c` is summing `(g u * b u) * a u`. -/
theorem scaled_sum_eq {ι : Type} (s : Finset ι) (c : ℝ) (hc : 0 ≤ c) (a b g : ι → EReal)
    (hg : ∀ u ∈ s, g u = (c : EReal)) :
    (c : EReal) * (0 + ∑ u ∈ s, a u * b u) = 0 + ∑ u ∈ s, (g u * b u) * a u := by
  rw [zero_add, zero_add, coe_mul_sum s c hc]
  refine Finset.sum_congr rfl fun u hu => ?_
  rw [hg u hu, mul_comm (a u) (b u), mul_assoc]

end Cert.ScaleOutOfSum
-- ==== Proof.Normaliser.lean ====
/-
  A node's normaliser is a non-negative real.

  A node's degree is a count: a zero plus a one for every edge that names the node. Its normaliser is the
  degree to the power `-1/2`. On the extended reals a power of two reals is the real power, and a real power
  of a non-negative base is non-negative; so the normaliser is a non-negative real whatever the edges are,
  which is what lets it move across a sum of messages.
-/
import Idealize.ShloMosaic.PureOps.Ideal

noncomputable section

namespace Cert.Normaliser

open Idealize.ShloMosaic

/-- A sum of ones over a finite set is the set's size, a real. -/
theorem sum_ones {ι : Type} (s : Finset ι) : ∑ _u ∈ s, ((1 : ℝ) : EReal) = ((s.card : ℝ) : EReal) := by
  classical
  induction s using Finset.induction_on with
  | empty => simp
  | insert a s ha ih =>
    rw [Finset.sum_insert ha, ih, Finset.card_insert_of_notMem ha, ← EReal.coe_add]
    congr 1
    push_cast; ring

/-- A count to the power `-1/2` is a non-negative real. -/
theorem pow_count {ι : Type} (s : Finset ι) :
    ∃ r : ℝ, 0 ≤ r ∧ Ideal.pow ((0 : EReal) + ∑ _u ∈ s, ((1 : ℝ) : EReal)) ((-(1 / 2) : ℝ) : EReal) = (r : EReal) := by
  rw [zero_add, sum_ones]
  exact ⟨Real.rpow (s.card : ℝ) (-(1 / 2)), Real.rpow_nonneg (Nat.cast_nonneg _) _, rfl⟩

/-- The same for a degree spelt out: a start that is zero, plus summands that are each one, to an exponent
    that is `-1/2`. -/
theorem pow_degree {ι : Type} (s : Finset ι) (z e : EReal) (f : ι → EReal) (hz : z = 0)
    (he : e = ((-(1 / 2) : ℝ) : EReal)) (hf : ∀ u, f u = ((1 : ℝ) : EReal)) :
    ∃ r : ℝ, 0 ≤ r ∧ Ideal.pow (z + ∑ u ∈ s, f u) e = (r : EReal) := by
  rw [hz, he, Finset.sum_congr rfl (fun u _ => hf u)]
  exact pow_count s

end Cert.Normaliser

end
-- ==== Proof.ScaledScatter.lean ====
/-
  The law joining the two programs, stated for an accumulating scatter.

  On the extended reals an accumulating scatter leaves in each entry the entry's start plus the sum of the
  updates that land on it. Here the start is zero and update `u` is a message: a carried feature `a u` times
  the sender's normaliser `b u`, and — in one of the two programs — times the receiver's normaliser `g u` as
  well. On every update that lands on entry `i` the receiver's normaliser is the one value `c i`, a
  non-negative real; such a factor distributes over the sum, so scattering the fully normalised messages is
  scaling the scatter of the half-normalised ones by `c`.

  Also here: a degree is the scatter of ones from zero, so its power `-1/2` is a non-negative real.
  Everything is stated over any shapes and any dimension numbers.
-/
import Idealize.ShloMosaic.PureOps.Ideal
import Idealize.ShloMosaic.PureOps.Contract
import Idealize.ShloMosaic.PureOps.Vector
import proofs.«408491_j74594991997165_3_alg».proof.Proof.ScaleOutOfSum
import proofs.«408491_j74594991997165_3_alg».proof.Proof.Normaliser

noncomputable section

namespace Cert.ScaledScatter

open Idealize.ShloMosaic

variable {s si su : Shape} {w : Nat}

/-- An accumulating scatter of extended reals, read at an entry: the start plus the sum of the updates that
    land there. -/
theorem scatterAdd_apply (d : ScatterDims s si su) (x : s.Idx → EReal) (idx : IVec si w) (upd : su.Idx → EReal)
    (i : s.Idx) :
    Host.scatterAdd (F := Ideal) (φ := .f32) d x idx upd i
      = x i + ∑ u ∈ Finset.univ.filter (fun u => d.resultIdx? u idx = some i), upd u := rfl

/-- Scattering `(g u * b u) * a u` from zero is scaling the scatter of `a u * b u` by `c`, when `g u = c i` on
    every update that lands on `i` and `c i` is a non-negative real. -/
theorem scatter_scaled (d : ScatterDims s si su) (idx : IVec si w) (z : s.Idx → EReal) (hz : ∀ i, z i = 0)
    (c : s.Idx → EReal) (hc : ∀ i, ∃ r : ℝ, 0 ≤ r ∧ c i = (r : EReal)) (a b g : su.Idx → EReal)
    (hg : ∀ i u, d.resultIdx? u idx = some i → g u = c i) (i : s.Idx) :
    Host.scatterAdd (F := Ideal) (φ := .f32) d z idx (fun u => (g u * b u) * a u) i
      = c i * Host.scatterAdd (F := Ideal) (φ := .f32) d z idx (fun u => a u * b u) i := by
  rw [scatterAdd_apply, scatterAdd_apply, hz]
  obtain ⟨r, hr, hcr⟩ := hc i
  rw [hcr]
  exact (ScaleOutOfSum.scaled_sum_eq _ r hr a b g
    (fun u hu => (hg i u (Finset.mem_filter.mp hu).2).trans hcr)).symm

/-- A degree — the scatter of ones from zero — to the power `-1/2` is a non-negative real, at every entry. -/
theorem pow_degree_real (d : ScatterDims s si su) (idx : IVec si w) (z e : s.Idx → EReal) (one : su.Idx → EReal)
    (hz : ∀ i, z i = 0) (he : ∀ i, e i = ((-(1 / 2) : ℝ) : EReal)) (h1 : ∀ u, one u = ((1 : ℝ) : EReal)) (i : s.Idx) :
    ∃ r : ℝ, 0 ≤ r ∧ Host.powf (F := Ideal) (φ := .f32) (Host.scatterAdd (F := Ideal) (φ := .f32) d z idx one) e i = (r : EReal) := by
  show ∃ r : ℝ, 0 ≤ r ∧ Ideal.pow (Host.scatterAdd (F := Ideal) (φ := .f32) d z idx one i) (e i) = (r : EReal)
  rw [scatterAdd_apply]
  exact Normaliser.pow_degree _ _ _ _ (hz i) (he i) h1

end Cert.ScaledScatter

end
-- ==== Proof.Literals.lean ====
/-
  The three float literals the programs spell, as the extended reals their patterns denote:
  `0.0` (what the sums start from), `1.0` (what each edge adds to its column's degree) and `-0.5`
  (the exponent that turns a degree into its normaliser).
-/
import Idealize.ShloMosaic.PureOps.Ideal

noncomputable section

namespace Cert.Literals

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

end Cert.Literals

end
-- ==== Proof.MessageSum.lean ====
/-
  The reference's result, with each receiver's normaliser taken out of its sum of messages.

  The reference forms, for every edge `e` from sender `c` to receiver `r` (the self loops included), the
  message `(d r * d c) * (x · W^T)[c]`, and adds it into row `r` of a zero table; an edge whose receiver word is
  no row is dropped. Read entry by entry, every message that lands on row `r` carries the same factor `d r`:
  the receiver's normaliser is gathered at the receiver word wrapped and clamped, and a word that lands on
  row `r` is `r`. So the result is `d r` times the sum of `(x · W^T)[c] * d c` over the same messages — the
  form the kernel computes.
-/
import proofs.«408491_j74594991997165_3_alg».proof.Proof.Gen.ReferenceIdeal.Read
import proofs.«408491_j74594991997165_3_alg».proof.Proof.EdgeIndex
import proofs.«408491_j74594991997165_3_alg».proof.Proof.ScaledScatter
import proofs.«408491_j74594991997165_3_alg».proof.Proof.Literals
import Idealize.ShloMosaic.Lib.StableHlo.Predicate

noncomputable section

namespace Cert.ReferenceIdeal.Messages

open Cert.ReferenceIdeal Cert.ReferenceIdeal.Gen Cert.ReferenceIdeal.Read
open Idealize.ShloMosaic Idealize.ShloMosaic.StableHlo.Predicate

variable (x0 : S100000x128.Idx → EReal) (x1 : S128x128.Idx → EReal) (x2 : S2x1600000.Idx → BitVec 32)

abbrev gatherRows := gather_S100000x128_S1700000x1_S1700000x128_1_0_n_n_0_1_1128
abbrev gatherOne := gather_S100000_S1700000x1_S1700000_n_0_n_n_0_1_1
abbrev scatterRows := scatter_S100000x128_S1700000x1_S1700000x128_1_0_0_1

/-- The node a table entry belongs to. -/
abbrev nodeOf (j : S100000x128.Idx) : S100000.Idx := Shape.Idx.ofFin (n := 100000) (j 0)
/-- The edge a message entry belongs to. -/
abbrev edgeOf (u : S1700000x128.Idx) : S1700000.Idx := Shape.Idx.ofFin (n := 1700000) (u 0)

/-- The projected feature row a message entry carries: the sender's. -/
abbrev carried (u : S1700000x128.Idx) : S100000x128.Idx := gatherRows.operandIdx u (val_main_v36 (F := Ideal) x2)

abbrev scatterOne := scatter_S100000_S1700000x1_S1700000_n_0_0_1

/-! ## The normaliser -/

theorem one_eq (u : S1700000.Idx) : val_main_v7 (F := Ideal) u = ((1 : ℝ) : EReal) := by
  rw [val_main_v7_apply, val_main_cst_apply, Ideal.ofBits_def, Literals.ofBits_one]

theorem zero_eq (j : S100000.Idx) : val_main_v8 (F := Ideal) j = 0 := by
  rw [val_main_v8_apply, val_main_cst_0_apply, Ideal.ofBits_def, Literals.ofBits_zero]

theorem exponent_eq (j : S100000.Idx) : val_main_v11 (F := Ideal) j = ((-(1 / 2) : ℝ) : EReal) := by
  rw [val_main_v11_apply, val_main_cst_1_apply, Ideal.ofBits_def, Literals.ofBits_neg_half]

/-- Every node's normaliser — its degree (a zero plus a one per edge whose sender word lands on it) to the
    power `-1/2` — is a non-negative real. -/
theorem normaliser_real (j : S100000.Idx) : ∃ r : ℝ, 0 ≤ r ∧ val_main_v12 (F := Ideal) x2 j = (r : EReal) := by
  unfold val_main_v12 val_main_v10
  exact ScaledScatter.pow_degree_real scatterOne (val_main_v9 (F := Ideal) x2) (val_main_v8 (F := Ideal))
    (val_main_v11 (F := Ideal)) (val_main_v7 (F := Ideal)) zero_eq exponent_eq one_eq j

/-! ## What the gathers read -/

/-- The two index arrays the gathers of the sender's side read are the same wrapped sender column. -/
theorem senders_same : val_main_v25 (F := Ideal) x2 = val_main_v36 (F := Ideal) x2 := rfl

theorem gather_one (idx : S1700000x1.Idx → BitVec 32) (e : Fin 1700000) :
    Host.gather gatherOne (val_main_v12 (F := Ideal) x2) idx (Shape.Idx.ofFin e)
      = val_main_v12 (F := Ideal) x2 (Shape.Idx.ofFin (n := 100000) ⟨min (idx (ixP e)).toInt.toNat (100000 - 1), by omega⟩) :=
  gather_take (N := 100000) (n := 1700000) gatherOne rfl rfl rfl rfl _ idx e (by decide)

/-- The sender's normaliser as the reference gathers it is the normaliser of the node whose row the message carries. -/
theorem sender_eq (u : S1700000x128.Idx) :
    val_main_v26 (F := Ideal) x2 (edgeOf u) = val_main_v12 (F := Ideal) x2 (nodeOf (carried x2 u)) := by
  unfold val_main_v26
  rw [senders_same]
  refine (gather_one x2 _ (u 0)).trans (congrArg (val_main_v12 (F := Ideal) x2) ?_)
  refine congrArg (Shape.Idx.ofFin (n := 100000)) (Fin.ext ?_)
  exact (EdgeIndex.gather_rows_row (N := 100000) (C := 128) (n := 1700000) gatherRows rfl rfl rfl rfl rfl _ u).symm

/-- The receiver's normaliser as the reference gathers it, for a message that lands on entry `i`, is `i`'s
    node's: landing on row `r` means the receiver word is `r`, which the wrap leaves alone and the clamp keeps. -/
theorem receiver_eq (i : S100000x128.Idx) (u : S1700000x128.Idx)
    (hu : scatterRows.resultIdx? u (val_main_v41 (F := Ideal) x2) = some i) :
    val_main_v19 (F := Ideal) x2 (edgeOf u) = val_main_v12 (F := Ideal) x2 (nodeOf i) := by
  have hland := EdgeIndex.scatter_rows_lands (N := 100000) (C := 128) (n := 1700000) scatterRows rfl rfl rfl rfl _ u i hu
  have e41 : val_main_v41 (F := Ideal) x2 (ixP (u 0)) = val_main_v5 (F := Ideal) x2 (Shape.Idx.ofFin (n := 1700000) (u 0)) := by
    unfold val_main_v41; exact bcast_col1 (n := 1700000) _ _ (u 0)
  have e18 : val_main_v18 (F := Ideal) x2 (ixP (u 0)) = val_main_v17 (F := Ideal) x2 (Shape.Idx.ofFin (n := 1700000) (u 0)) := by
    unfold val_main_v18; exact bcast_col1 (n := 1700000) _ _ (u 0)
  rw [e41] at hland
  unfold val_main_v19
  refine (gather_one x2 _ (u 0)).trans (congrArg (val_main_v12 (F := Ideal) x2) ?_)
  refine congrArg (Shape.Idx.ofFin (n := 100000)) (Fin.ext ?_)
  show min (val_main_v18 (F := Ideal) x2 (ixP (u 0))).toInt.toNat (100000 - 1) = (i 0).val
  rw [e18, val_main_v17_apply, val_main_v14_apply, val_main_v16_apply, val_main_v13_apply, val_main_c_apply]
  exact EdgeIndex.clamp_wrap_of_row _ _ (i 0).val 100000 (i 0).isLt hland

/-! ## The messages, and the result -/

theorem start_eq (i : S100000x128.Idx) : val_main_v40 (F := Ideal) i = 0 := by
  rw [val_main_v40_apply, val_main_cst_7_apply, Ideal.ofBits_def, Literals.ofBits_zero]

/-- A message entry: the receiver's normaliser times the sender's, times the carried feature. -/
theorem messages_eq :
    val_main_v39 (F := Ideal) x0 x1 x2
      = fun u => (val_main_v19 (F := Ideal) x2 (edgeOf u) * val_main_v12 (F := Ideal) x2 (nodeOf (carried x2 u)))
          * val_main_v29 (F := Ideal) x0 x1 (carried x2 u) := by
  funext u
  have e : idx_main_v30 (idx_main_v38 u) = edgeOf u := funext fun a => by
    match a with
    | ⟨0, _⟩ => exact Fin.ext rfl
  rw [val_main_v39_apply, val_main_v38_apply, val_main_v30_apply, val_main_v27_apply, e, sender_eq]
  rfl

/-- THE RESULT of the reference: at every entry, the node's normaliser times the sum, over the messages that
    land there, of the carried feature times the sender's normaliser. -/
theorem result_eq (i : S100000x128.Idx) :
    val_main_v42 (F := Ideal) x0 x1 x2 i
      = val_main_v12 (F := Ideal) x2 (nodeOf i)
        * Host.scatterAdd (F := Ideal) (φ := .f32) scatterRows (val_main_v40 (F := Ideal)) (val_main_v41 (F := Ideal) x2)
            (fun u => val_main_v29 (F := Ideal) x0 x1 (carried x2 u) * val_main_v12 (F := Ideal) x2 (nodeOf (carried x2 u))) i := by
  unfold val_main_v42
  rw [messages_eq]
  exact ScaledScatter.scatter_scaled scatterRows (val_main_v41 (F := Ideal) x2) (val_main_v40 (F := Ideal)) start_eq
    (fun i => val_main_v12 (F := Ideal) x2 (nodeOf i)) (fun i => normaliser_real x2 (nodeOf i))
    (fun u => val_main_v29 (F := Ideal) x0 x1 (carried x2 u))
    (fun u => val_main_v12 (F := Ideal) x2 (nodeOf (carried x2 u)))
    (fun u => val_main_v19 (F := Ideal) x2 (edgeOf u))
    (fun i u h => receiver_eq x2 i u h) i

end Cert.ReferenceIdeal.Messages

end
-- ==== Proof.ProjectedRows.lean ====
/-
  What the kernel's one region leaves in its output array.

  The region walks 25 blocks of 4000 rows. At each it multiplies the block of `x` by the whole transposed
  weight matrix (a contraction over the 128 input features, into a zero accumulator) and scales row `r` of
  the product by the entry `(r, 0)` of a one-column array (the rows' normalisers), and writes the block back.
  Changes of float format are the identity on the extended reals. The blocks tile the array, so after the
  run the array is ONE function of the three arrays the region read: entry `(r, f)` is
  `(∑ k, x[r, k] * wt[k, f]) * col[r, 0]`.
-/
import proofs.«408491_j74594991997165_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Projected

open Cert.KernelIdeal Cert.KernelIdeal.Gen Idealize.ShloMosaic Idealize.ShloMosaic.TcCoe Idealize.ShloMosaic.ValueIdx
open Idealize.SL Idealize.SL.Sem
open Idealize.ShloMosaic.Pipeline (Dat)

/-! ## The block product at an entry

The contraction's operand indices at output entry `(p, q)` and contraction index `k`: `(p, k)` on the left,
`(k, q)` on the right. -/

theorem lhs_blk_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_blk_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_blk_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_blk_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The value the body stores, at entry `(p, q)` of the block: the row of the left block against the column
    of the right one, times the row's entry of the one-column block. -/
theorem pay_apply (x0 : Vec Ideal S4000x128 .f32) (x1 : Vec Ideal S128x128 .f32) (x2 : Vec Ideal S4000x1 .f32) (p : Fin 4000) (q : Fin 128) :
    k0_pay1 (F := Ideal) x0 x1 x2 (ix2 p q) = (∑ k : Fin 128, x0 (ix2 p k) * x1 (ix2 k q)) * x2 (ix2 p (0 : Fin 1)) := by
  unfold k0_pay1
  rw [truncf_apply, mulf_apply, shapeCast_self, shapeCast_self,
    broadcastTo_apply x2 broadcasts_S4000x1_S4000x128 (ix2 p q) (ix2 p (0 : Fin 1)) (fun a => by
      match a with
      | ⟨0, _⟩ => show p.val = if (4000 : Nat) = 1 then 0 else p.val; rw [if_neg (by decide)]
      | ⟨1, _⟩ => show (0 : Nat) = if (1 : Nat) = 1 then 0 else _; rw [if_pos rfl])]
  congr 1
  show FloatOps.matmul _ _ _ _ _ (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  rfl

variable (m : (ℓ : Loc nD τ sig) → Buf (Elt Ideal) ℓ)

theorem hz : (![0, 0] : Fin 2 → Nat) = fun _ => 0 := funext fun a => by fin_cases a <;> rfl

/-- The rows of `x · wt`, each scaled by its entry of the column `d2`. -/
def rowsScaled (x : S100000x128.Idx → EReal) (wt : S128x128.Idx → EReal) (d2 : S100000x1.Idx → EReal) : S100000x128.Idx → EReal :=
  fun i => (∑ k : Fin 128, x (ix2 (n0 := 100000) (i 0) k) * wt (ix2 k (i 1))) * d2 (ix2 (n0 := 100000) (i 0) (0 : Fin 1))

/-- The printed index maps, decided over the grid: at point `t` the output's block and the blocks of `x` and
    of the column are block `t` along the rows; the weight matrix is always its one block. -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `rowsScaled` of the arrays as the region finds them. -/
theorem flushed_eq (c : Dev nD) (t : Fin cfg0.N) :
    (dats m 0 c).flushed 3 t = ((cfg0.win 3).blk t).view.read (Elt Ideal) (rowsScaled (V m c main_arg0) (V m c main_v13) (V m c main_v14)) := by
  show (cfg0.win 3).cut (grid0.coords t) ((dats m 0 c).after 3 t) = _
  rw [after0_3]
  unfold out0_3
  rw [View.canon_unit_zero hz]
  simp only [View.ld_unit_zero (S := S4000x128) hz, View.ld_unit_zero (S := S128x128) hz, View.ld_unit_zero (S := S4000x1) hz]
  obtain ⟨e00, e01, e10, e11, e20, e21, e30, e31⟩ := idx_facts t
  generalize hP : k0_pay1 (iblk m c 0 t) (iblk m c 1 t) (iblk m c 2 t) = P
  funext y
  rw [View.read_apply]
  refine Eq.trans ?_ (cast_eq _ _).symm
  show P ((win0 3).xinj (grid0.coords t) y) = _
  have hx : (win0 3).xinj (grid0.coords t) y = ix2 (n0 := 4000) (n1 := 128) ⟨(y 0).val, (y 0).isLt⟩ ⟨(y 1).val, (y 1).isLt⟩ :=
    funext fun a => by
      match a with
      | ⟨0, _⟩ => rfl
      | ⟨1, _⟩ => rfl
  rw [hx, ← hP]
  refine (pay_apply (iblk m c 0 t) (iblk m c 1 t) (iblk m c 2 t) ⟨(y 0).val, (y 0).isLt⟩ ⟨(y 1).val, (y 1).isLt⟩).trans ?_
  unfold rowsScaled
  have r0 : ∀ k : Fin 128, iblk m c 0 t (ix2 (n0 := 4000) (n1 := 128) ⟨(y 0).val, (y 0).isLt⟩ k)
      = V m c main_arg0 (ix2 (n0 := 100000) ((((View.whole main_v15).slice ((win0 3).rect t)).emb y) 0) k) := fun k => by
    unfold iblk
    rw [View.read_apply]
    refine (cast_eq _ _).trans ?_
    refine congrArg (V m c main_arg0) (funext fun a => Fin.ext ?_)
    match a with
    | ⟨0, _⟩ => show win0_0.index t (0 : Fin 2) * 4000 + 1 * (y 0).val = win0_3.index t (0 : Fin 2) * 4000 + 1 * (y 0).val; omega
    | ⟨1, _⟩ => show win0_0.index t (1 : Fin 2) * 128 + 1 * k.val = k.val; omega
  have r1 : ∀ k : Fin 128, iblk m c 1 t (ix2 (n0 := 128) (n1 := 128) k ⟨(y 1).val, (y 1).isLt⟩)
      = V m c main_v13 (ix2 (n0 := 128) k ((((View.whole main_v15).slice ((win0 3).rect t)).emb y) 1)) := fun k => by
    unfold iblk
    rw [View.read_apply]
    refine (cast_eq _ _).trans ?_
    refine congrArg (V m c main_v13) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_3.index t (1 : Fin 2) * 128 + 1 * (y 1).val; omega
  have r2 : iblk m c 2 t (ix2 (n0 := 4000) (n1 := 1) ⟨(y 0).val, (y 0).isLt⟩ (0 : Fin 1))
      = V m c main_v14 (ix2 (n0 := 100000) ((((View.whole main_v15).slice ((win0 3).rect t)).emb y) 0) (0 : Fin 1)) := by
    unfold iblk
    rw [View.read_apply]
    refine (cast_eq _ _).trans ?_
    refine congrArg (V m c main_v14) (funext fun a => Fin.ext ?_)
    match a with
    | ⟨0, _⟩ => show win0_2.index t (0 : Fin 2) * 4000 + 1 * (y 0).val = win0_3.index t (0 : Fin 2) * 4000 + 1 * (y 0).val; omega
    | ⟨1, _⟩ => show win0_2.index t (1 : Fin 2) * 1 + 1 * 0 = 0; omega
  simp only [r0, r1, r2]

/-- An entry of the array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v15).slice (win0_3.rect t)).set ↔ _
  rw [View.set_slice_whole, Rect.mem_set_unit]
  exact Iff.rfl

/-- Every entry is in some point's block: row `r` is in the block of point `r / 4000`. -/
theorem cover (i : S100000x128.Idx) : ∃ t : Fin cfg0.N, (cfg0.win 3).flush t = true ∧ i ∈ ((cfg0.win 3).blk t).view.set := by
  have hN : cfg0.N = 25 := N_0
  have hi0 : (i 0).val < 100000 := (i 0).isLt
  have hi1 : (i 1).val < 128 := (i 1).isLt
  have ht : (i 0).val / 4000 < cfg0.N := by rw [hN]; omega
  refine ⟨⟨(i 0).val / 4000, ht⟩, flush0_3 _, ?_⟩
  obtain ⟨-, -, -, -, -, -, e30, e31⟩ := idx_facts ⟨(i 0).val / 4000, ht⟩
  rw [mem_blk]
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ (1 : Fin 2) * 128 ≤ (i 1).val ∧ (i 1).val < win0_3.index ⟨(i 0).val / 4000, ht⟩ (1 : Fin 2) * 128 + 128
    rw [e31]; omega

/-- THE ARRAY the region leaves. -/
theorem final (c : Dev nD) :
    (dats m 0 c).arrAt 3 cfg0.N = rowsScaled (V m c main_arg0) (V m c main_v13) (V m c main_v14) :=
  (dats m 0 c).arrAt_eq_of_cover 3 _ (fun t _ => flushed_eq m c t) cover

end Cert.KernelIdeal.Projected

end
-- ==== Proof.KernelResult.lean ====
/-
  The kernel's result, read off its run.

  Around its one region the kernel's program does, on the host, what the reference does: before the region
  the edge columns with the self loops appended, the degrees, the normalisers `d` and the transposed weights;
  after it a gather of the region's array `Y` at the wrapped sender column, a scatter of those rows from zero
  at the receiver column, and a final scaling of row `r` by `d r`. The region leaves `Y[c] = (x · W^T)[c] * d c`
  (the rows of the product, each scaled by its node's normaliser). So entry `(r, f)` of the result is
  `d r` times the sum, over the messages that land on it, of `(x · W^T)[c, f] * d c` — which is what the
  reference's result is once each receiver's normaliser is taken out of its sum.
  Each value the host lines compute before the region is the reference's stage of the same meaning,
  operation for operation.
-/
import proofs.«408491_j74594991997165_3_alg».proof.Proof.Gen.KernelIdeal.Frame
import proofs.«408491_j74594991997165_3_alg».proof.Proof.ProjectedRows
import proofs.«408491_j74594991997165_3_alg».proof.Proof.MessageSum
import Idealize.ShloMosaic.Lib.StableHlo.Run
import Idealize.ShloMosaic.Lib.StableHlo.Predicate
import Idealize.ShloMosaic.Lib.ValueIdx
import Idealize.ShloMosaic.Lib.Pipeline.Value

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.StableHlo.Predicate (ij ixP bcast_rows)
open Cert.ReferenceIdeal.Read (val_main_v5 val_main_v6 val_main_v12 val_main_v28 val_main_v29 val_main_v36 val_main_v40 val_main_v41 val_main_v42
  lidx_main_v29 ridx_main_v29 val_main_v29_apply)
open Cert.ReferenceIdeal.Messages (nodeOf carried scatterRows gatherRows)

variable (m : (ℓ : Loc nD τ sig) → Buf (Elt Ideal) ℓ) (ρ : Dev nD → PrngReg)

/-- The three arguments as launched. -/
abbrev xArg (c : Dev nD) : S100000x128.Idx → EReal := m ((c.tc : Thread nD τ).loc main_arg0)
abbrev wArg (c : Dev nD) : S128x128.Idx → EReal := m ((c.tc : Thread nD τ).loc main_arg1)
abbrev eArg (c : Dev nD) : S2x1600000.Idx → BitVec 32 := m ((c.tc : Thread nD τ).loc main_arg2)

/-! ## Before the region: the receiver and sender columns, the normalisers, the transposed weights -/

set_option maxHeartbeats 2000000 in
theorem pre_rows (c : Dev nD) : V m c main_v5 = val_main_v5 (F := Ideal) (eArg m c) := by
  show StableHlo.after hostOps0 (fun b => m (c, b)) (Proc.devRef .tc main_v5) = _
  after_results_simp
  rfl

set_option maxHeartbeats 2000000 in
theorem pre_cols (c : Dev nD) : V m c main_v6 = val_main_v6 (F := Ideal) (eArg m c) := by
  show StableHlo.after hostOps0 (fun b => m (c, b)) (Proc.devRef .tc main_v6) = _
  after_results_simp
  rfl

set_option maxHeartbeats 2000000 in
theorem pre_norm (c : Dev nD) : V m c main_v12 = val_main_v12 (F := Ideal) (eArg m c) := by
  show StableHlo.after hostOps0 (fun b => m (c, b)) (Proc.devRef .tc main_v12) = _
  after_results_simp
  rfl

set_option maxHeartbeats 2000000 in
theorem pre_wt (c : Dev nD) : V m c main_v13 = val_main_v28 (F := Ideal) (wArg m c) := by
  show StableHlo.after hostOps0 (fun b => m (c, b)) (Proc.devRef .tc main_v13) = _
  after_results_simp
  rfl

set_option maxHeartbeats 2000000 in
theorem pre_col (c : Dev nD) :
    V m c main_v14 = shapeCast S100000x1 (val_main_v12 (F := Ideal) (eArg m c)) shapeCasts_S100000_S100000x1 := by
  show StableHlo.after hostOps0 (fun b => m (c, b)) (Proc.devRef .tc main_v14) = _
  after_results_simp
  rfl

/-- A vector viewed as a one-column array reads, at `(i, 0)`, the vector at `i`. -/
theorem shapeCast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (Shape.Idx.ofFin i) := by
  have hu : u.val = 0 := by omega
  refine (shapeCast_apply x h _ (ix1 i) ?_).trans (congrArg x (funext fun d => by
    match d with
    | ⟨0, _⟩ => exact Fin.ext rfl))
  rw [Shape.rowMajor_val_one, Shape.rowMajor_val_two]
  show i.val = i.val * 1 + u.val
  omega

/-- THE REGION'S ARRAY, in the reference's terms: the projected row times its node's normaliser. -/
theorem array_eq (c : Dev nD) (j : S100000x128.Idx) :
    (dats m 0 c).arrAt 3 cfg0.N j
      = val_main_v29 (F := Ideal) (xArg m c) (wArg m c) j * val_main_v12 (F := Ideal) (eArg m c) (nodeOf j) := by
  rw [Projected.final]
  unfold Projected.rowsScaled
  have hc : shapeCast S100000x1 (val_main_v12 (F := Ideal) (eArg m c)) shapeCasts_S100000_S100000x1 (ix2 (n0 := 100000) (j 0) (0 : Fin 1))
      = val_main_v12 (F := Ideal) (eArg m c) (nodeOf j) := shapeCast_col (a := 100000) _ _ (j 0) 0
  rw [V_main_arg0, pre_wt, pre_col, hc, val_main_v29_apply]
  have hl : ∀ k : Fin 128, lidx_main_v29 j k = ix2 (n0 := 100000) (j 0) k := fun k => funext fun a => by
    match a with
    | ⟨0, _⟩ => rfl
    | ⟨1, _⟩ => rfl
  have hr : ∀ k : Fin 128, ridx_main_v29 j k = ix2 (n0 := 128) k (j 1) := fun k => funext fun a => by
    match a with
    | ⟨0, _⟩ => rfl
    | ⟨1, _⟩ => rfl
  simp only [hl, hr]
  rfl

/-- The row of start indices the tail's gather reads is the reference's wrapped sender column. -/
theorem senders_eq (c : Dev nD) :
    broadcastInDim S1700000x1 ![0] bcast_S1700000_S1700000x1_0
        (select (cmpi .slt (val_main_v6 (F := Ideal) (eArg m c)) (broadcastInDim S1700000 ![] bcast_S_S1700000 (constantI S_ 32 0#32)))
          (addi (val_main_v6 (F := Ideal) (eArg m c)) (broadcastInDim S1700000 ![] bcast_S_S1700000 (constantI S_ 32 100000#32)))
          (val_main_v6 (F := Ideal) (eArg m c)))
      = val_main_v36 (F := Ideal) (eArg m c) := rfl

set_option maxHeartbeats 2000000 in
/-- THE KERNEL'S RESULT is the reference's last stage of the same arguments: the tail's lines read one by one,
    the region's array by `array_eq`, and the reference's result with the receivers' normalisers taken out. -/
theorem result_eq (c : Dev nD) :
    Pipeline.afterTail₀ cfgs (dats m) 0 (V0 m) [hostOps1] c main_v29
      = val_main_v42 (F := Ideal) (xArg m c) (wArg m c) (eArg m c) := by
  unfold Pipeline.afterTail₀
  show StableHlo.after hostOps1 _ (Proc.devRef .tc main_v29) = _
  after_results_simp
  have h15 : Pipeline.withArrays (cfgs 0).spec c (V0 m c) (fun w => (dats m 0 c).arrAt w (cfgs 0).N) (Proc.devRef .tc main_v15)
      = (dats m 0 c).arrAt 3 cfg0.N := Pipeline.withArrays_arr spec0 launch0.win.arr_inj c _ _ 3
  have h12 : Pipeline.withArrays (cfgs 0).spec c (V0 m c) (fun w => (dats m 0 c).arrAt w (cfgs 0).N) (Proc.devRef .tc main_v12)
      = V m c main_v12 := Pipeline.withArrays_of_ne _ c (V0 m c) _ main_v12 (by exact (by decide : ∀ w, Pipeline.arrRef spec0 w ≠ main_v12))
  have h5 : Pipeline.withArrays (cfgs 0).spec c (V0 m c) (fun w => (dats m 0 c).arrAt w (cfgs 0).N) (Proc.devRef .tc main_v5)
      = V m c main_v5 := Pipeline.withArrays_of_ne _ c (V0 m c) _ main_v5 (by exact (by decide : ∀ w, Pipeline.arrRef spec0 w ≠ main_v5))
  have h6 : Pipeline.withArrays (cfgs 0).spec c (V0 m c) (fun w => (dats m 0 c).arrAt w (cfgs 0).N) (Proc.devRef .tc main_v6)
      = V m c main_v6 := Pipeline.withArrays_of_ne _ c (V0 m c) _ main_v6 (by exact (by decide : ∀ w, Pipeline.arrRef spec0 w ≠ main_v6))
  rw [h15, h12, h5, h6, pre_norm, pre_rows, pre_cols, senders_eq]
  funext i
  rw [Cert.ReferenceIdeal.Messages.result_eq, mulf_apply]
  have hb : broadcastInDim S100000x128 ![0, 1] bcast_S100000x1_S100000x128_0_1
        (broadcastInDim S100000x1 ![0] bcast_S100000_S100000x1_0 (val_main_v12 (F := Ideal) (eArg m c))) i
      = val_main_v12 (F := Ideal) (eArg m c) (nodeOf i) := by
    have h := bcast_rows (n := 100000) (m := 128) bcast_S100000_S100000x1_0 bcast_S100000x1_S100000x128_0_1
      (val_main_v12 (F := Ideal) (eArg m c)) (i 0) (i 1)
    have hi : ij (n := 100000) (m := 128) (i 0) (i 1) = i := funext fun a => by
      match a with
      | ⟨0, _⟩ => rfl
      | ⟨1, _⟩ => rfl
    rw [hi] at h
    exact h
  rw [hb]
  refine congrArg (fun S : EReal => val_main_v12 (F := Ideal) (eArg m c) (nodeOf i) * S) ?_
  refine congrFun (congrArg (Host.scatterAdd (F := Ideal) (φ := .f32) scatterRows (val_main_v40 (F := Ideal))
    (val_main_v41 (F := Ideal) (eArg m c))) (funext fun u => ?_)) i
  exact array_eq m c _

/-- The run, read: the result buffer at the reference's last stage of the arguments, the arguments unchanged. -/
theorem run : θ_run defs (onTc (τ := τ) (main (F := Ideal))) ⟨m, fun _ => 0, ρ⟩ (fun r => ∀ c : Dev nD,
      r.2.mem ((c.tc : Thread nD τ).loc main_v29) = val_main_v42 (F := Ideal) (xArg m c) (wArg m c) (eArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v29 (Pipeline.mem_restRefs_of main_v29 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  A graph convolution step, `out = D^(-1/2) (A + I) D^(-1/2) (x · W^T)`, in two arrangements.

  With `d` the nodes' normalisers (degree to the power `-1/2`, the self loops counted), the reference sums, for
  each receiver `r`, the messages `(d r * d c) * (x · W^T)[c]` of its edges `(r, c)`. The kernel computes
  `Y[c] = (x · W^T)[c] * d c` in one tiled matrix product with the scaling fused, sums `Y[c]` over the edges
  of each receiver, and scales the sum by `d r`. The two differ by moving `d r` across the sum, which is
  sound on the extended reals because `d r` is a non-negative real (ScaleOutOfSum, Normaliser), and by the
  receiver's normaliser being gathered per edge in one and read per row in the other, which agree on every
  edge that lands on a row (EdgeIndex, MessageSum). The matrix products agree entry by entry (ProjectedRows,
  KernelResult). The precondition is not used: the law needs no finiteness of `x` or `W`.

  The frames of the two kernel programs are the generated ones; the reference's frame is its generated run
  with the result dropped; the idealized kernel is the kernel's own text read over the extended reals (no operation was
  rewritten), so `preserves` is trivial.
-/
import proofs.«408491_j74594991997165_3_alg».proof.Defs
import proofs.«408491_j74594991997165_3_alg».proof.Proof.Gen.Kernel
import proofs.«408491_j74594991997165_3_alg».proof.Proof.Gen.Kernel.Skeleton
import proofs.«408491_j74594991997165_3_alg».proof.Proof.Gen.Kernel.Launch
import proofs.«408491_j74594991997165_3_alg».proof.Proof.Gen.Kernel.Points
import proofs.«408491_j74594991997165_3_alg».proof.Proof.Gen.Kernel.Frame
import proofs.«408491_j74594991997165_3_alg».proof.Proof.Gen.KernelIdeal
import proofs.«408491_j74594991997165_3_alg».proof.Proof.Gen.KernelIdeal.Skeleton
import proofs.«408491_j74594991997165_3_alg».proof.Proof.Gen.KernelIdeal.Launch
import proofs.«408491_j74594991997165_3_alg».proof.Proof.Gen.KernelIdeal.Points
import proofs.«408491_j74594991997165_3_alg».proof.Proof.Gen.KernelIdeal.Frame
import proofs.«408491_j74594991997165_3_alg».proof.Proof.Gen.ReferenceIdeal
import proofs.«408491_j74594991997165_3_alg».proof.Proof.Gen.Pre_finite_inputs
import proofs.«408491_j74594991997165_3_alg».proof.Proof.Gen.ReferenceIdeal.Run
import proofs.«408491_j74594991997165_3_alg».proof.Proof.Gen.ReferenceIdeal.Read
import Idealize.ShloMosaic.Adequacy
import Idealize.ShloMosaic.Init

import proofs.«408491_j74594991997165_3_alg».proof.Proof.MessageSum
import proofs.«408491_j74594991997165_3_alg».proof.Proof.KernelResult

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the result buffer at the reference's
    last stage of those arguments. -/
theorem algebraic : Cert.algebraic_KernelIdeal_ReferenceIdeal := by
  intro m ρ m' ρ' _ hagree
  refine ⟨fun c => Cert.ReferenceIdeal.Read.val_main_v42 (F := Ideal) (Cert.KernelIdeal.Result.xArg m c)
    (Cert.KernelIdeal.Result.wArg m c) (Cert.KernelIdeal.Result.eArg m c), Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v42_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
